-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x4000x512 : Shape := ⟨3, ![16, 4000, 512]⟩
abbrev S257x512 : Shape := ⟨2, ![257, 512]⟩
abbrev S_ : Shape := ⟨0, ![]⟩

class Facts : Prop where
  bcast_S_S16x4000x512 : S_.BroadcastsInDim S16x4000x512 (![] : Fin 0 → Fin S16x4000x512.rank)
  reducesTo_S16x4000x512_S_d0_1_2 : S16x4000x512.ReducesTo [0, 1, 2] S_
  h_S_ : 0 < S_.numel
  bcast_S_S257x512 : S_.BroadcastsInDim S257x512 (![] : Fin 0 → Fin S257x512.rank)
  reducesTo_S257x512_S_d0_1 : S257x512.ReducesTo [0, 1] S_

variable [Facts]

def fn {F : FTy → Type} [FloatOps F] (main_arg0 : FVec F S16x4000x512 .f32) (main_arg1 : FVec F S257x512 .f32) (main_arg2 : FVec F S257x512 .f32) : IVec S_ 1 :=
  let main_v0 : FVec F S16x4000x512 .f32 := Host.absf main_arg0
  let main_cst : FVec F S_ .f32 := constant S_ .f32 0x7F800000#32
  let main_v1 : FVec F S16x4000x512 .f32 := broadcastInDim S16x4000x512 ![] bcast_S_S16x4000x512 main_cst
  let main_v2 : IVec S16x4000x512 1 := cmpf .olt main_v0 main_v1
  let main_c : IVec S_ 1 := constantI S_ 1 1#1
  let main_v3 : IVec S_ 1 := (fun x v => Host.reduce IntOp.andi x v reducesTo_S16x4000x512_S_d0_1_2 h_S_) main_v2 main_c
  let main_v4 : FVec F S257x512 .f32 := Host.absf main_arg1
  let main_cst_0 : FVec F S_ .f32 := constant S_ .f32 0x7F800000#32
  let main_v5 : FVec F S257x512 .f32 := broadcastInDim S257x512 ![] bcast_S_S257x512 main_cst_0
  let main_v6 : IVec S257x512 1 := cmpf .olt main_v4 main_v5
  let main_c_1 : IVec S_ 1 := constantI S_ 1 1#1
  let main_v7 : IVec S_ 1 := (fun x v => Host.reduce IntOp.andi x v reducesTo_S257x512_S_d0_1 h_S_) main_v6 main_c_1
  let main_v8 : IVec S_ 1 := andi main_v3 main_v7
  let main_v9 : FVec F S257x512 .f32 := Host.absf main_arg2
  let main_cst_2 : FVec F S_ .f32 := constant S_ .f32 0x7F800000#32
  let main_v10 : FVec F S257x512 .f32 := broadcastInDim S257x512 ![] bcast_S_S257x512 main_cst_2
  let main_v11 : IVec S257x512 1 := cmpf .olt main_v9 main_v10
  let main_c_3 : IVec S_ 1 := constantI S_ 1 1#1
  let main_v12 : IVec S_ 1 := (fun x v => Host.reduce IntOp.andi x v reducesTo_S257x512_S_d0_1 h_S_) main_v11 main_c_3
  let main_v13 : IVec S_ 1 := andi main_v8 main_v12
  main_v13
-- ==== Kernel.lean ====
abbrev S16x4000x512 : Shape := ⟨3, ![16, 4000, 512]⟩
abbrev S257x512 : Shape := ⟨2, ![257, 512]⟩
abbrev S512x257 : Shape := ⟨2, ![512, 257]⟩
abbrev S512x257x1 : Shape := ⟨3, ![512, 257, 1]⟩
abbrev S512x257x2 : Shape := ⟨3, ![512, 257, 2]⟩
abbrev S512x514 : Shape := ⟨2, ![512, 514]⟩
abbrev S64000x512 : Shape := ⟨2, ![64000, 512]⟩
abbrev S64000x514 : Shape := ⟨2, ![64000, 514]⟩
abbrev S2000x512 : Shape := ⟨2, ![2000, 512]⟩
abbrev S2000x514 : Shape := ⟨2, ![2000, 514]⟩
abbrev S16x4000x514 : Shape := ⟨3, ![16, 4000, 514]⟩

abbrev nBuf : Space → Nat
  | .hbm => 13
  | .vmem => 5
  | .smem => 0
  | _ => 0

abbrev bufTy : (tb : Table) → Fin (tcTables nBuf tb) → BufTy
  | .hbm, ⟨0, _⟩ => ⟨S16x4000x512, .f32⟩
  | .hbm, ⟨1, _⟩ => ⟨S257x512, .f32⟩
  | .hbm, ⟨2, _⟩ => ⟨S257x512, .f32⟩
  | .hbm, ⟨3, _⟩ => ⟨S512x257, .f32⟩
  | .hbm, ⟨4, _⟩ => ⟨S512x257, .f32⟩
  | .hbm, ⟨5, _⟩ => ⟨S512x257x1, .f32⟩
  | .hbm, ⟨6, _⟩ => ⟨S512x257x1, .f32⟩
  | .hbm, ⟨7, _⟩ => ⟨S512x257x2, .f32⟩
  | .hbm, ⟨8, _⟩ => ⟨S512x514, .f32⟩
  | .hbm, ⟨9, _⟩ => ⟨S512x514, .bf16⟩
  | .hbm, ⟨10, _⟩ => ⟨S64000x512, .f32⟩
  | .hbm, ⟨11, _⟩ => ⟨S64000x514, .f32⟩
  | .hbm, ⟨12, _⟩ => ⟨S16x4000x514, .f32⟩
  | .local _ .vmem, ⟨0, _⟩ => ⟨S2000x512, .f32⟩
  | .local _ .vmem, ⟨1, _⟩ => ⟨S2000x512, .f32⟩
  | .local _ .vmem, ⟨2, _⟩ => ⟨S512x514, .bf16⟩
  | .local _ .vmem, ⟨3, _⟩ => ⟨S2000x514, .f32⟩
  | .local _ .vmem, ⟨4, _⟩ => ⟨S2000x514, .f32⟩
  | _, _ => ⟨S16x4000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x514 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x514 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  transposes_S257x512_S512x257_1_0 : S257x512.Transposes [1, 0] S512x257
  bcast_S512x257_S512x257x1_0_1 : S512x257.BroadcastsInDim S512x257x1 (![0, 1] : Fin 2 → Fin S512x257x1.rank)
  concatenates_S512x257x1_S512x257x1_S512x257x2_d2 : Shape.Concatenates [S512x257x1, S512x257x1] S512x257x2 2
  shapeCasts_S512x257x2_S512x514 : S512x257x2.ShapeCasts S512x514
  bitsLt_bf16_f32 : FTy.bits .bf16 < FTy.bits .f32
  shapeCasts_S16x4000x512_S64000x512 : S16x4000x512.ShapeCasts S64000x512
  inb_S2000x512_S2000x512_0_0 : ∀ a, (![0, 0] : Fin 2 → Nat) a + S2000x512.size a ≤ S2000x512.size a
  h_S2000x512 : 0 < S2000x512.numel
  shapeCasts_S2000x512_S2000x512 : S2000x512.ShapeCasts S2000x512
  inb_S512x514_S512x514_0_0 : ∀ a, (![0, 0] : Fin 2 → Nat) a + S512x514.size a ≤ S512x514.size a
  h_S512x514 : 0 < S512x514.numel
  shapeCasts_S512x514_S512x514 : S512x514.ShapeCasts S512x514
  inb_S2000x514_S2000x514_0_0 : ∀ a, (![0, 0] : Fin 2 → Nat) a + S2000x514.size a ≤ S2000x514.size a
  h_S2000x514 : 0 < S2000x514.numel
  shapeCasts_S64000x514_S16x4000x514 : S64000x514.ShapeCasts S16x4000x514
  dot_S2000x512_S512x514_S2000x514_1_0_0_1_n_n_wf : DotDims.WF S2000x512 S512x514 S2000x514 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x512.size a ≤ S64000x512.size a
  hwx0_0 : ∀ i : grid0.Coords, EltTy.bits .f32 = 32 ∨ (Rect.block (s := S64000x512) S2000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x514.size a ≤ S512x514.size a
  hwx0_1 : ∀ i : grid0.Coords, EltTy.bits .bf16 = 32 ∨ (Rect.block (s := S512x514) S512x514.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x514.size a ≤ S64000x514.size a
  hwx0_2 : ∀ i : grid0.Coords, EltTy.bits .f32 = 32 ∨ (Rect.block (s := S64000x514) S2000x514.size (cc0_transform_2 i) (hinb0_2 i)).WholeWords (EltTy.packing .f32)

variable [Facts₀]

def dot_S2000x512_S512x514_S2000x514_1_0_0_1_n_n : DotDims S2000x512 S512x514 S2000x514 where
  lhsContracting := [1]
  rhsContracting := [0]
  lhsNonContracting := [0]
  rhsNonContracting := [1]
  lhsBatch := []
  rhsBatch := []
  wf := dot_S2000x512_S512x514_S2000x514_1_0_0_1_n_n_wf

abbrev win0_0 : Pipeline.Window sig grid0 :=
  Pipeline.Window.ofSpec (Memref.whole main_v7) S2000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S512x514.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v8) S2000x514.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16x4000x512 : Shape := ⟨3, ![16, 4000, 512]⟩
abbrev S257x512 : Shape := ⟨2, ![257, 512]⟩
abbrev S16x4000x257 : Shape := ⟨3, ![16, 4000, 257]⟩
abbrev S16x4000x257x1 : Shape := ⟨4, ![16, 4000, 257, 1]⟩
abbrev S16x4000x257x2 : Shape := ⟨4, ![16, 4000, 257, 2]⟩
abbrev S16x4000x514 : Shape := ⟨3, ![16, 4000, 514]⟩

abbrev nBuf : Space → Nat
  | .hbm => 9
  | .vmem => 0
  | .smem => 0
  | _ => 0

abbrev bufTy : (tb : Table) → Fin (tcTables nBuf tb) → BufTy
  | .hbm, ⟨0, _⟩ => ⟨S16x4000x512, .f32⟩
  | .hbm, ⟨1, _⟩ => ⟨S257x512, .f32⟩
  | .hbm, ⟨2, _⟩ => ⟨S257x512, .f32⟩
  | .hbm, ⟨3, _⟩ => ⟨S16x4000x257, .f32⟩
  | .hbm, ⟨4, _⟩ => ⟨S16x4000x257, .f32⟩
  | .hbm, ⟨5, _⟩ => ⟨S16x4000x257x1, .f32⟩
  | .hbm, ⟨6, _⟩ => ⟨S16x4000x257x1, .f32⟩
  | .hbm, ⟨7, _⟩ => ⟨S16x4000x257x2, .f32⟩
  | .hbm, ⟨8, _⟩ => ⟨S16x4000x514, .f32⟩
  | _, _ => ⟨S16x4000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]

class Facts₀ : Prop where
  bcast_S16x4000x257_S16x4000x257x1_0_1_2 : S16x4000x257.BroadcastsInDim S16x4000x257x1 (![0, 1, 2] : Fin 3 → Fin S16x4000x257x1.rank)
  concatenates_S16x4000x257x1_S16x4000x257x1_S16x4000x257x2_d3 : Shape.Concatenates [S16x4000x257x1, S16x4000x257x1] S16x4000x257x2 3
  shapeCasts_S16x4000x257x2_S16x4000x514 : S16x4000x257x2.ShapeCasts S16x4000x514
  dot_S16x4000x512_S257x512_S16x4000x257_2_1_01_0_n_n_wf : DotDims.WF S16x4000x512 S257x512 S16x4000x257 [2] [1] [0, 1] [0] [] []

variable [Facts₀]

def dot_S16x4000x512_S257x512_S16x4000x257_2_1_01_0_n_n : DotDims S16x4000x512 S257x512 S16x4000x257 where
  lhsContracting := [2]
  rhsContracting := [1]
  lhsNonContracting := [0, 1]
  rhsNonContracting := [0]
  lhsBatch := []
  rhsBatch := []
  wf := dot_S16x4000x512_S257x512_S16x4000x257_2_1_01_0_n_n_wf

class Facts : Prop extends Facts₀ where

variable [Facts]
-- ==== Proof.Spec.lean ====
/-
  A one-sided discrete Fourier transform as ONE matrix product: the function both programs compute, and the
  rearrangements each makes around its product, read at an index.

  The input is a stack of 16 × 4000 frames of 512 samples. The two coefficient tables hold, for each of the 257
  frequency bins, a row of 512 coefficients: `re` for the real part, `im` for the imaginary part. A frame's
  transform lists the bins' real and imaginary parts interleaved, 514 numbers: entry `2k` is
  `∑ n, x[n] · re[k, n]` and entry `2k + 1` is `∑ n, x[n] · im[k, n]` (`spectrum`; the coefficient that
  column `c` gives sample `n` is `coef re im c n`).

  One program takes the two products bin by bin and interleaves the RESULTS (a unit axis added to each, the two
  joined along it, the pair folded into the column: `interleaved_apply`). The other interleaves the COEFFICIENTS
  first, into one 512 × 514 matrix whose column `c` is row `c / 2` of `re` or of `im` as `c` is even or odd
  (each table transposed, a unit axis added, the two joined along it, the pair folded into the column:
  `weights_apply`), lays the 16 × 4000 frames out as 64000 rows (`rows_apply`), takes ONE product, and cuts the
  64000 rows back into 16 × 4000 frames (`frames_apply`). Every one of these steps moves entries and computes
  nothing, so the two results are the same sums of the same products, term by term: no law of arithmetic is used
  beyond the sum being written over the same index set.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

noncomputable section

namespace Cert.Dft

open Idealize.ShloMosaic Idealize.ShloMosaic.ValueIdx

variable {α : Type}

/-- The frequency bin of a column of a frame's transform: columns `2k` and `2k + 1` belong to bin `k`. -/
def bin (c : Fin 514) : Fin 257 := ⟨c.val / 2, by have := c.isLt; omega⟩

theorem bin_val (c : Fin 514) : (bin c).val = c.val / 2 := rfl

/-- The coefficient column `c` of the transform gives sample `n`: the real table's at an even column, the imaginary
    table's at an odd one, in the column's bin. -/
def coef (re im : (⟨2, ![257, 512]⟩ : Shape).Idx → α) (c : Fin 514) (n : Fin 512) : α :=
  if c.val % 2 = 0 then re (ix2 (bin c) n) else im (ix2 (bin c) n)

/-- THE TRANSFORM: entry `c` of frame `(b, f)` is the frame's samples against column `c`'s coefficients, summed. -/
def spectrum (x : (⟨3, ![16, 4000, 512]⟩ : Shape).Idx → EReal) (re im : (⟨2, ![257, 512]⟩ : Shape).Idx → EReal) :
    (⟨3, ![16, 4000, 514]⟩ : Shape).Idx → EReal :=
  fun i => ∑ n : Fin 512, x (ix3 (i 0) (i 1) n) * coef re im (i 2) n

theorem spectrum_apply (x : (⟨3, ![16, 4000, 512]⟩ : Shape).Idx → EReal) (re im : (⟨2, ![257, 512]⟩ : Shape).Idx → EReal)
    (b : Fin 16) (f : Fin 4000) (c : Fin 514) :
    spectrum x re im (ix3 b f c) = ∑ n : Fin 512, x (ix3 b f n) * coef re im c n := rfl

/-! ## The frames as rows, and back -/

/-- The 16 × 4000 frames laid out as 64000 rows: row `b · 4000 + f` is frame `(b, f)`. -/
theorem rows_apply (x : (⟨3, ![16, 4000, 512]⟩ : Shape).Idx → α)
    (h : (⟨3, ![16, 4000, 512]⟩ : Shape).ShapeCasts ⟨2, ![64000, 512]⟩)
    (b : Fin 16) (f : Fin 4000) (n : Fin 512) (r : Fin 64000) (hr : r.val = b.val * 4000 + f.val) :
    shapeCast ⟨2, ![64000, 512]⟩ x h (ix2 r n) = x (ix3 b f n) :=
  shapeCast_apply x h _ _ (by
    rw [Shape.rowMajor_val_three, Shape.rowMajor_val_two]
    show (b.val * 4000 + f.val) * 512 + n.val = r.val * 512 + n.val
    rw [hr])

/-- 64000 rows of 514 cut back into 16 × 4000 frames: frame `(b, f)` is row `b · 4000 + f`. -/
theorem frames_apply (y : (⟨2, ![64000, 514]⟩ : Shape).Idx → α)
    (h : (⟨2, ![64000, 514]⟩ : Shape).ShapeCasts ⟨3, ![16, 4000, 514]⟩)
    (b : Fin 16) (f : Fin 4000) (c : Fin 514) (r : Fin 64000) (hr : r.val = b.val * 4000 + f.val) :
    shapeCast ⟨3, ![16, 4000, 514]⟩ y h (ix3 b f c) = y (ix2 r c) :=
  shapeCast_apply y h _ _ (by
    rw [Shape.rowMajor_val_three, Shape.rowMajor_val_two]
    show r.val * 514 + c.val = (b.val * 4000 + f.val) * 514 + c.val
    rw [hr])

/-! ## The coefficients interleaved into one matrix -/

/-- The 512 × 514 matrix of interleaved coefficients, read at sample `n` and column `c`: each table transposed,
    given a trailing unit axis, the two joined along that axis and the pair folded into the column. -/
theorem weights_apply (re im : (⟨2, ![257, 512]⟩ : Shape).Idx → α)
    (ht : (⟨2, ![257, 512]⟩ : Shape).Transposes [1, 0] ⟨2, ![512, 257]⟩)
    (hb : (⟨2, ![512, 257]⟩ : Shape).BroadcastsInDim ⟨3, ![512, 257, 1]⟩ (![0, 1] : Fin 2 → Fin 3))
    (hc : Shape.Concatenates [⟨3, ![512, 257, 1]⟩, ⟨3, ![512, 257, 1]⟩] ⟨3, ![512, 257, 2]⟩ (2 : Fin 3))
    (hs : (⟨3, ![512, 257, 2]⟩ : Shape).ShapeCasts ⟨2, ![512, 514]⟩) (n : Fin 512) (c : Fin 514) :
    shapeCast ⟨2, ![512, 514]⟩ (concatenate ⟨3, ![512, 257, 2]⟩ (2 : Fin 3)
      [⟨⟨3, ![512, 257, 1]⟩, broadcastInDim ⟨3, ![512, 257, 1]⟩ (![0, 1] : Fin 2 → Fin 3) hb (transpose ⟨2, ![512, 257]⟩ [1, 0] re ht)⟩,
       ⟨⟨3, ![512, 257, 1]⟩, broadcastInDim ⟨3, ![512, 257, 1]⟩ (![0, 1] : Fin 2 → Fin 3) hb (transpose ⟨2, ![512, 257]⟩ [1, 0] im ht)⟩] hc) hs (ix2 n c)
      = coef re im c n := by
  have hc514 := c.isLt
  -- the column folds back into (bin, parity)
  refine (shapeCast_apply _ hs (ix2 n c) (ix3 n (bin c) (⟨c.val % 2, by omega⟩ : Fin 2)) (by
    rw [Shape.rowMajor_val_three, Shape.rowMajor_val_two]
    show (n.val * 257 + c.val / 2) * 2 + c.val % 2 = n.val * 514 + c.val
    omega)).trans ?_
  unfold coef
  by_cases hpar : c.val % 2 = 0
  · rw [if_pos hpar]
    refine (concatenate_pair_apply_left (t := ⟨3, ![512, 257, 2]⟩) (2 : Fin 3) _ _ hc _ rfl (ix3 n (bin c) (0 : Fin 1)) (fun b => ?_)).trans ?_
    · match b with
      | ⟨0, _⟩ => rfl
      | ⟨1, _⟩ => rfl
      | ⟨2, _⟩ => exact hpar.symm
    refine (broadcastInDim_apply _ hb _ _ (ix2 n (bin c)) (fun a => ?_)).trans ?_
    · match a with
      | ⟨0, _⟩ => rfl
      | ⟨1, _⟩ => rfl
    exact transpose_ix2_apply re ht n (bin c)
  · rw [if_neg hpar]
    refine (concatenate_pair_apply_right (t := ⟨3, ![512, 257, 2]⟩) (2 : Fin 3) _ _ hc _ rfl rfl (ix3 n (bin c) (0 : Fin 1)) (fun b hb2 => ?_) ?_).trans ?_
    · match b with
      | ⟨0, _⟩ => rfl
      | ⟨1, _⟩ => rfl
      | ⟨2, _⟩ => exact absurd rfl hb2
    · show 0 + 1 = c.val % 2
      omega
    refine (broadcastInDim_apply _ hb _ _ (ix2 n (bin c)) (fun a => ?_)).trans ?_
    · match a with
      | ⟨0, _⟩ => rfl
      | ⟨1, _⟩ => rfl
    exact transpose_ix2_apply im ht n (bin c)

/-! ## The results interleaved -/

/-- Two 16 × 4000 × 257 arrays interleaved along the last axis into 16 × 4000 × 514, read at frame `(b, f)` and
    column `c`: each given a trailing unit axis, the two joined along it, the pair folded into the column. -/
theorem interleaved_apply (u v : (⟨3, ![16, 4000, 257]⟩ : Shape).Idx → α)
    (hb : (⟨3, ![16, 4000, 257]⟩ : Shape).BroadcastsInDim ⟨4, ![16, 4000, 257, 1]⟩ (![0, 1, 2] : Fin 3 → Fin 4))
    (hc : Shape.Concatenates [⟨4, ![16, 4000, 257, 1]⟩, ⟨4, ![16, 4000, 257, 1]⟩] ⟨4, ![16, 4000, 257, 2]⟩ (3 : Fin 4))
    (hs : (⟨4, ![16, 4000, 257, 2]⟩ : Shape).ShapeCasts ⟨3, ![16, 4000, 514]⟩) (b : Fin 16) (f : Fin 4000) (c : Fin 514) :
    shapeCast ⟨3, ![16, 4000, 514]⟩ (concatenate ⟨4, ![16, 4000, 257, 2]⟩ (3 : Fin 4)
      [⟨⟨4, ![16, 4000, 257, 1]⟩, broadcastInDim ⟨4, ![16, 4000, 257, 1]⟩ (![0, 1, 2] : Fin 3 → Fin 4) hb u⟩,
       ⟨⟨4, ![16, 4000, 257, 1]⟩, broadcastInDim ⟨4, ![16, 4000, 257, 1]⟩ (![0, 1, 2] : Fin 3 → Fin 4) hb v⟩] hc) hs (ix3 b f c)
      = if c.val % 2 = 0 then u (ix3 b f (bin c)) else v (ix3 b f (bin c)) := by
  have hc514 := c.isLt
  refine (shapeCast_apply _ hs (ix3 b f c) (ix4 b f (bin c) (⟨c.val % 2, by omega⟩ : Fin 2)) (by
    rw [Shape.rowMajor_val_four, Shape.rowMajor_val_three]
    show ((b.val * 4000 + f.val) * 257 + c.val / 2) * 2 + c.val % 2 = (b.val * 4000 + f.val) * 514 + c.val
    omega)).trans ?_
  by_cases hpar : c.val % 2 = 0
  · rw [if_pos hpar]
    refine (concatenate_pair_apply_left (t := ⟨4, ![16, 4000, 257, 2]⟩) (3 : Fin 4) _ _ hc _ rfl (ix4 b f (bin c) (0 : Fin 1)) (fun a => ?_)).trans ?_
    · match a with
      | ⟨0, _⟩ => rfl
      | ⟨1, _⟩ => rfl
      | ⟨2, _⟩ => rfl
      | ⟨3, _⟩ => exact hpar.symm
    refine broadcastInDim_apply _ hb _ _ (ix3 b f (bin c)) (fun a => ?_)
    match a with
    | ⟨0, _⟩ => rfl
    | ⟨1, _⟩ => rfl
    | ⟨2, _⟩ => rfl
  · rw [if_neg hpar]
    refine (concatenate_pair_apply_right (t := ⟨4, ![16, 4000, 257, 2]⟩) (3 : Fin 4) _ _ hc _ rfl rfl (ix4 b f (bin c) (0 : Fin 1)) (fun a ha3 => ?_) ?_).trans ?_
    · match a with
      | ⟨0, _⟩ => rfl
      | ⟨1, _⟩ => rfl
      | ⟨2, _⟩ => rfl
      | ⟨3, _⟩ => exact absurd rfl ha3
    · show 0 + 1 = c.val % 2
      omega
    refine broadcastInDim_apply _ hb _ _ (ix3 b f (bin c)) (fun a => ?_)
    match a with
    | ⟨0, _⟩ => rfl
    | ⟨1, _⟩ => rfl
    | ⟨2, _⟩ => rfl

end Cert.Dft

end
-- ==== Proof.RefValue.lean ====
/-
  The reference's result is the transform.

  The reference takes two products over the 512 samples of each frame, one against the real table and one against the
  imaginary table, each giving the 257 bins of every frame, and interleaves the two results bin by bin. Read at frame
  `(b, f)` and column `c`, the interleaving picks the real product at an even column and the imaginary product at an
  odd one, at bin `c / 2`; that product is the sum over the samples `n` of `x[b, f, n]` times the table's entry
  `[c / 2, n]` — the transform's own sum, with the same terms in the same order.
-/
import proofs.«169990_j56049323213334_1_alg».proof.Defs
import proofs.«169990_j56049323213334_1_alg».proof.Proof.Gen.ReferenceIdeal.Run
import proofs.«169990_j56049323213334_1_alg».proof.Proof.Gen.ReferenceIdeal.Read
import proofs.«169990_j56049323213334_1_alg».proof.Proof.Spec

noncomputable section

namespace Cert.ReferenceIdeal.RefValue

open Cert.ReferenceIdeal Cert.ReferenceIdeal.Gen Cert.ReferenceIdeal.Read
open Idealize.ShloMosaic Idealize.ShloMosaic.TcCoe Idealize.ShloMosaic.ValueIdx Idealize.SL.Sem Cert.Dft

/-- The left operand's index in either product, at output `(b, f, k)` and sample `n`: frame `(b, f)`, sample `n`. -/
theorem sample_idx (b : Fin 16) (f : Fin 4000) (k : Fin 257) (n : Fin 512) :
    lidx_main_v0 (ix3 b f k) n = ix3 b f n :=
  funext fun a => match a with | ⟨0, _⟩ => rfl | ⟨1, _⟩ => rfl | ⟨2, _⟩ => rfl

/-- The right operand's: bin `k`, sample `n`. -/
theorem table_idx (b : Fin 16) (f : Fin 4000) (k : Fin 257) (n : Fin 512) :
    ridx_main_v0 (ix3 b f k) n = ix2 k n :=
  funext fun a => match a with | ⟨0, _⟩ => rfl | ⟨1, _⟩ => rfl

/-- One product read at `(b, f, k)`: the frame's samples against bin `k`'s row of the table. -/
theorem bins_apply (x : FVec Ideal S16x4000x512 .f32) (tbl : FVec Ideal S257x512 .f32) (b : Fin 16) (f : Fin 4000) (k : Fin 257) :
    Host.dotGeneral (F := Ideal) dot_S16x4000x512_S257x512_S16x4000x257_2_1_01_0_n_n none x tbl (ix3 b f k)
      = ∑ n : Fin 512, x (ix3 b f n) * tbl (ix2 k n) := by
  refine (val_main_v0_apply x tbl (ix3 b f k)).trans ?_
  simp only [sample_idx, table_idx]

/-- THE REFERENCE'S RESULT TERM IS THE TRANSFORM, entry by entry. -/
theorem result_eq (x : FVec Ideal S16x4000x512 .f32) (re im : FVec Ideal S257x512 .f32) :
    shapeCast S16x4000x514 (concatenate S16x4000x257x2 3
      [⟨S16x4000x257x1, (broadcastInDim S16x4000x257x1 ![0, 1, 2] bcast_S16x4000x257_S16x4000x257x1_0_1_2 (Host.dotGeneral (F := Ideal) dot_S16x4000x512_S257x512_S16x4000x257_2_1_01_0_n_n none x re))⟩,
       ⟨S16x4000x257x1, (broadcastInDim S16x4000x257x1 ![0, 1, 2] bcast_S16x4000x257_S16x4000x257x1_0_1_2 (Host.dotGeneral (F := Ideal) dot_S16x4000x512_S257x512_S16x4000x257_2_1_01_0_n_n none x im))⟩]
      concatenates_S16x4000x257x1_S16x4000x257x1_S16x4000x257x2_d3) shapeCasts_S16x4000x257x2_S16x4000x514
      = spectrum x re im := by
  funext i
  obtain ⟨b, f, c, rfl⟩ : ∃ (b : Fin 16) (f : Fin 4000) (c : Fin 514), i = ix3 b f c := ⟨i 0, i 1, i 2, eq_ix3 i⟩
  refine (interleaved_apply _ _ bcast_S16x4000x257_S16x4000x257x1_0_1_2
    concatenates_S16x4000x257x1_S16x4000x257x1_S16x4000x257x2_d3 shapeCasts_S16x4000x257x2_S16x4000x514 b f c).trans ?_
  rw [spectrum_apply]
  by_cases hpar : c.val % 2 = 0
  · simp only [coef, if_pos hpar]
    exact bins_apply x re b f (bin c)
  · simp only [coef, if_neg hpar]
    exact bins_apply x im b f (bin c)

/-- The reference's run with its result named: the transform of the argument arrays. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v5)
        = spectrum (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans (result_eq _ _ _), (h c).2⟩)
    (Cert.ReferenceIdeal.Value.run (F := Ideal) m ρ)

end Cert.ReferenceIdeal.RefValue

end
-- ==== Proof.KernelBlocks.lean ====
/-
  The kernel's one region: the product of the 64000 rows with the 512 × 514 matrix, 2000 rows at a time.

  The region walks a grid of 32 points. At point `t` it is given rows `2000·t … 2000·t + 1999` of the row array and
  the whole matrix, multiplies them into a zero accumulator, and writes the 2000 × 514 product back as rows
  `2000·t … 2000·t + 1999` of the output. A product into a zero accumulator is, entry by entry, the sum over the 512
  samples of the row's entry times the matrix's (`product_apply`; the change of number format in front of it is the
  identity on the extended reals). So what point `t` writes back is block `t` of ONE function of the two arrays,
  `rowsTimes`: entry `(r, c)` is `∑ n, rows[r, n] · weights[n, c]` (`flushed_eq`). The 32 blocks tile the 64000 rows —
  row `r` lies in block `r / 2000` (`cover`) — so after the region the output array is that function (`product_eq`).
-/
import proofs.«169990_j56049323213334_1_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

namespace Cert.KernelIdeal.Blocks

open Cert.KernelIdeal Cert.KernelIdeal.Gen
open Idealize.ShloMosaic Idealize.ShloMosaic.TcCoe Idealize.ShloMosaic.ValueIdx Idealize.SL.Sem
open Idealize.ShloMosaic.Pipeline (Dat Cfg Window)

/-! ## The product at an entry -/

/-- The left operand's index at output entry `i`: its row is `i`'s row, -/
theorem lhs_row (i : S2000x514.Idx) (q : dot_S2000x512_S512x514_S2000x514_1_0_0_1_n_n.contr.Idx) :
    (dot_S2000x512_S512x514_S2000x514_1_0_0_1_n_n.lhsIdx i q 0).val = (i 0).val := by
  unfold DotDims.lhsIdx
  rw [dif_neg (show ¬(0 : Fin S2000x512.rank) ∈ dot_S2000x512_S512x514_S2000x514_1_0_0_1_n_n.lhsBatch by decide), dif_pos (show (0 : Fin S2000x512.rank) ∈ dot_S2000x512_S512x514_S2000x514_1_0_0_1_n_n.lhsNonContracting by decide)]
  rfl
/-- and its column the summed sample. -/
theorem lhs_sample (i : S2000x514.Idx) (q : dot_S2000x512_S512x514_S2000x514_1_0_0_1_n_n.contr.Idx) :
    (dot_S2000x512_S512x514_S2000x514_1_0_0_1_n_n.lhsIdx i q 1).val = (q ⟨0, by decide⟩).val :=
  dot_S2000x512_S512x514_S2000x514_1_0_0_1_n_n.lhsIdx_val_of_single rfl i q
/-- The right operand's row is the summed sample, -/
theorem rhs_sample (i : S2000x514.Idx) (q : dot_S2000x512_S512x514_S2000x514_1_0_0_1_n_n.contr.Idx) :
    (dot_S2000x512_S512x514_S2000x514_1_0_0_1_n_n.rhsIdx i q 0).val = (q ⟨0, by decide⟩).val :=
  dot_S2000x512_S512x514_S2000x514_1_0_0_1_n_n.rhsIdx_val_of_single rfl i q
/-- and its column is `i`'s column. -/
theorem rhs_col (i : S2000x514.Idx) (q : dot_S2000x512_S512x514_S2000x514_1_0_0_1_n_n.contr.Idx) :
    (dot_S2000x512_S512x514_S2000x514_1_0_0_1_n_n.rhsIdx i q 1).val = (i 1).val := by
  unfold DotDims.rhsIdx
  rw [dif_neg (show ¬(1 : Fin S512x514.rank) ∈ dot_S2000x512_S512x514_S2000x514_1_0_0_1_n_n.rhsBatch by decide), dif_pos (show (1 : Fin S512x514.rank) ∈ dot_S2000x512_S512x514_S2000x514_1_0_0_1_n_n.rhsNonContracting by decide)]
  rfl

/-- THE BODY'S VALUE at entry `(p, q)` of a block: row `p` of the rows it was given against column `q` of the matrix,
    summed over the 512 samples. -/
theorem product_apply (x0 : Vec Ideal S2000x512 .f32) (x1 : Vec Ideal S512x514 .bf16) (p : Fin 2000) (q : Fin 514) :
    k0_pay1 (F := Ideal) x0 x1 (ix2 p q) = ∑ n : Fin 512, x0 (ix2 p n) * x1 (ix2 n q) := by
  unfold k0_pay1
  refine (Ideal.matmul_constant_zero_apply dot_S2000x512_S512x514_S2000x514_1_0_0_1_n_n none _ _ (ix2 p q)).trans ?_
  rw [← Equiv.sum_comp (contrEquiv1 dot_S2000x512_S512x514_S2000x514_1_0_0_1_n_n 512 rfl rfl).symm]
  refine Finset.sum_congr rfl fun k _ => ?_
  have hk := contrEquiv1_symm_val dot_S2000x512_S512x514_S2000x514_1_0_0_1_n_n 512 rfl rfl k
  have el : dot_S2000x512_S512x514_S2000x514_1_0_0_1_n_n.lhsIdx (ix2 p q) ((contrEquiv1 dot_S2000x512_S512x514_S2000x514_1_0_0_1_n_n 512 rfl rfl).symm k) = ix2 p k := funext fun a => Fin.ext (by
    match a with
    | ⟨0, _⟩ => exact lhs_row _ _
    | ⟨1, _⟩ => exact (lhs_sample _ _).trans hk)
  have er : dot_S2000x512_S512x514_S2000x514_1_0_0_1_n_n.rhsIdx (ix2 p q) ((contrEquiv1 dot_S2000x512_S512x514_S2000x514_1_0_0_1_n_n 512 rfl rfl).symm k) = ix2 k q := funext fun a => Fin.ext (by
    match a with
    | ⟨0, _⟩ => exact (rhs_sample _ _).trans hk
    | ⟨1, _⟩ => exact rhs_col _ _)
  rw [el, er]
  simp only [shapeCast_self]
  rfl

/-- The same with the two blocks' entries NAMED: whatever the rows' and the matrix's entries are known to be. -/
theorem product_apply_of_eq (x0 : Vec Ideal S2000x512 .f32) (x1 : Vec Ideal S512x514 .bf16) (y : S2000x514.Idx)
    (L : Fin 512 → EReal) (R : Fin 512 → EReal) (hL : ∀ n : Fin 512, x0 (ix2 (y 0) n) = L n) (hR : ∀ n : Fin 512, x1 (ix2 n (y 1)) = R n) :
    k0_pay1 (F := Ideal) x0 x1 y = ∑ n : Fin 512, L n * R n := by
  obtain ⟨p, q, rfl⟩ : ∃ (p : Fin 2000) (q : Fin 514), y = ix2 p q := ⟨y 0, y 1, eq_ix2 y⟩
  rw [product_apply]
  exact Finset.sum_congr rfl fun n _ => congrArg₂ (· * ·) (hL n) (hR n)

/-! ## What each point writes back -/

variable (m : (ℓ : Loc nD τ sig) → Buf (Elt Ideal) ℓ)

/-- The row array as the region finds it. -/
abbrev rowsArr (c : Dev nD) : S64000x512.Idx → EReal := V m c main_v7
/-- The matrix as the region finds it. -/
abbrev weightsArr (c : Dev nD) : S512x514.Idx → EReal := V m c main_v6

/-- The rows times the matrix: entry `(r, c)` is row `r` against column `c`, summed over the samples. -/
def rowsTimes (A : S64000x512.Idx → EReal) (B : S512x514.Idx → EReal) : S64000x514.Idx → EReal :=
  fun i => ∑ n : Fin 512, A (ix2 (i 0) n) * B (ix2 n (i 1))

theorem hz : (![0, 0] : Fin 2 → Nat) = fun _ => 0 := funext fun a => by fin_cases a <;> rfl

/-- The printed index maps, decided over the grid: at point `t` the rows' and the output's block is block `t` down the
    rows, and the matrix's is the whole matrix. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- WHAT POINT `t` WRITES BACK is block `t` of the rows times the matrix. -/
theorem flushed_eq (c : Dev nD) (t : Fin cfg0.N) :
    (dats m 0 c).flushed 2 t = ((cfg0.win 2).blk t).view.read (Elt Ideal) (rowsTimes (rowsArr m c) (weightsArr m c)) := by
  show (cfg0.win 2).cut (grid0.coords t) ((dats m 0 c).after 2 t) = _
  rw [after0_2]
  unfold out0_2
  rw [View.canon_unit_zero hz]
  simp only [View.ld_unit_zero (S := S2000x512) hz, View.ld_unit_zero (S := S512x514) hz]
  obtain ⟨e0, e1, e2, e3, e4, e5⟩ := idx_facts t
  funext j
  have hj0 : (j 0).val < 2000 := (j 0).isLt
  have hj1 : (j 1).val < 514 := (j 1).isLt
  have ht : t.val < 32 := t.isLt
  show k0_pay1 (F := Ideal) (iblk m c 0 t) (iblk m c 1 t) j = rowsTimes (rowsArr m c) (weightsArr m c) (((cfg0.win 2).blk t).view.emb j)
  refine (product_apply_of_eq (iblk m c 0 t) (iblk m c 1 t) j
    (fun n => rowsArr m c (ix2 (((cfg0.win 2).blk t).view.emb j 0) n))
    (fun n => weightsArr m c (ix2 n (((cfg0.win 2).blk t).view.emb j 1))) (fun n => ?_) (fun n => ?_)).trans rfl
  · show V m c main_v7 (((cfg0.win 0).blk t).view.emb (ix2 (j 0) n)) = V m c main_v7 (ix2 (((cfg0.win 2).blk t).view.emb j 0) n)
    refine congrArg (V m c main_v7) (funext fun a => Fin.ext ?_)
    match a with
    | ⟨0, _⟩ => show win0_0.index t (0 : Fin 2) * 2000 + 1 * (j 0).val = win0_2.index t (0 : Fin 2) * 2000 + 1 * (j 0).val; omega
    | ⟨1, _⟩ => show win0_0.index t (1 : Fin 2) * 512 + 1 * n.val = n.val; omega
  · show V m c main_v6 (((cfg0.win 1).blk t).view.emb (ix2 n (j 1))) = V m c main_v6 (ix2 n (((cfg0.win 2).blk t).view.emb j 1))
    refine congrArg (V m c main_v6) (funext fun a => Fin.ext ?_)
    match a with
    | ⟨0, _⟩ => show win0_1.index t (0 : Fin 2) * 512 + 1 * n.val = n.val; omega
    | ⟨1, _⟩ => show win0_1.index t (1 : Fin 2) * 514 + 1 * (j 1).val = win0_2.index t (1 : Fin 2) * 514 + 1 * (j 1).val; omega

/-! ## The blocks tile the output -/

/-- An entry of the output is in point `t`'s block iff each coordinate is in the block's range on its axis. -/
theorem mem_blk (t : Fin cfg0.N) (i : S64000x514.Idx) :
    i ∈ ((cfg0.win 2).blk t).view.set ↔ ∀ a : Fin 2, win0_2.index t a * S2000x514.size a ≤ (i a).val ∧ (i a).val < win0_2.index t a * S2000x514.size a + S2000x514.size a := by
  show i ∈ ((View.whole main_v8).slice (win0_2.rect t)).set ↔ _
  rw [View.set_slice_whole, Rect.mem_set_unit]
  exact Iff.rfl

/-- Row `r` of the output lies in the block of point `r / 2000`, which is written back. -/
theorem cover (i : S64000x514.Idx) : ∃ t : Fin cfg0.N, (cfg0.win 2).flush t = true ∧ i ∈ ((cfg0.win 2).blk t).view.set := by
  have hi0 : (i 0).val < 64000 := (i 0).isLt
  have hi1 : (i 1).val < 514 := (i 1).isLt
  have hN : cfg0.N = 32 := N_0
  refine ⟨⟨(i 0).val / 2000, by rw [hN]; omega⟩, flush0_2 _, ?_⟩
  rw [mem_blk]
  obtain ⟨e0, e1, e2, e3, e4, e5⟩ := idx_facts ⟨(i 0).val / 2000, by rw [hN]; omega⟩
  intro a
  match a with
  | ⟨0, _⟩ =>
    show win0_2.index _ (0 : Fin 2) * 2000 ≤ (i 0).val ∧ (i 0).val < win0_2.index _ (0 : Fin 2) * 2000 + 2000
    rw [e4]; show (i 0).val / 2000 * 2000 ≤ (i 0).val ∧ (i 0).val < (i 0).val / 2000 * 2000 + 2000; omega
  | ⟨1, _⟩ =>
    show win0_2.index _ (1 : Fin 2) * 514 ≤ (i 1).val ∧ (i 1).val < win0_2.index _ (1 : Fin 2) * 514 + 514
    rw [e5]; omega

/-- THE OUTPUT ARRAY after the region: the rows times the matrix. -/
theorem product_eq (c : Dev nD) : (dats m 0 c).arrAt 2 cfg0.N = rowsTimes (rowsArr m c) (weightsArr m c) :=
  (dats m 0 c).arrAt_eq_of_cover 2 (rowsTimes (rowsArr m c) (weightsArr m c)) (fun t _ => flushed_eq m c t) cover

end Cert.KernelIdeal.Blocks

end
-- ==== Proof.KernelValue.lean ====
/-
  The kernel's program, whole: what the host prepares for the region, what the region leaves, and what the host makes of it.

  Before the region the host lays the 16 × 4000 frames out as 64000 rows (`rows_eq`) and interleaves the two coefficient
  tables into one 512 × 514 matrix (`weights_eq`; the change of number format on top is the identity on the extended
  reals). The region leaves the rows times the matrix in the output array (`Blocks.product_eq`). After the region
  the host cuts the 64000 rows back into 16 × 4000 frames (`result_eq`). Reading the three together at frame `(b, f)`
  and column `c`: row `b · 4000 + f` of the rows is the frame, and column `c` of the matrix is the coefficient row of
  `c`'s bin in the real or the imaginary table as `c` is even or odd, so the entry is the transform's sum
  (`value_eq`).
-/
import proofs.«169990_j56049323213334_1_alg».proof.Proof.KernelBlocks
import proofs.«169990_j56049323213334_1_alg».proof.Proof.Spec
import Idealize.ShloMosaic.Lib.StableHlo.Run

noncomputable section

namespace Cert.KernelIdeal.Whole

open Cert.KernelIdeal Cert.KernelIdeal.Gen Cert.KernelIdeal.Blocks
open Idealize.ShloMosaic Idealize.ShloMosaic.TcCoe Idealize.ShloMosaic.ValueIdx Idealize.SL.Sem Idealize.ShloMosaic.StableHlo
open Cert.Dft

variable (m : (ℓ : Loc nD τ sig) → Buf (Elt Ideal) ℓ) (ρ : Dev nD → PrngReg)

/-! ## What the host prepares -/

/-- The row array the region finds: the frames laid out as rows. -/
theorem rows_eq (c : Dev nD) :
    rowsArr m c = shapeCast S64000x512 (m ((c : Thread nD τ).loc main_arg0)) shapeCasts_S16x4000x512_S64000x512 := by
  show StableHlo.after hostOps0 (fun b => m (c, b)) (Proc.devRef .tc main_v7) = _
  after_results
  rfl

/-- The matrix the region finds: the two tables' coefficients interleaved. -/
theorem weights_eq (c : Dev nD) :
    weightsArr m c = truncf (F := Ideal) .bf16 (shapeCast S512x514 (concatenate S512x257x2 2
      [⟨S512x257x1, broadcastInDim S512x257x1 ![0, 1] bcast_S512x257_S512x257x1_0_1
          (transpose S512x257 [1, 0] (m ((c : Thread nD τ).loc main_arg1)) transposes_S257x512_S512x257_1_0)⟩,
       ⟨S512x257x1, broadcastInDim S512x257x1 ![0, 1] bcast_S512x257_S512x257x1_0_1
          (transpose S512x257 [1, 0] (m ((c : Thread nD τ).loc main_arg2)) transposes_S257x512_S512x257_1_0)⟩]
      concatenates_S512x257x1_S512x257x1_S512x257x2_d2) shapeCasts_S512x257x2_S512x514) bitsLt_bf16_f32 := by
  show StableHlo.after hostOps0 (fun b => m (c, b)) (Proc.devRef .tc main_v6) = _
  after_results
  rfl

/-- Row `b · 4000 + f` of the rows is frame `(b, f)`. -/
theorem rows_entry (c : Dev nD) (b : Fin 16) (f : Fin 4000) (n : Fin 512) (r : Fin 64000) (hr : r.val = b.val * 4000 + f.val) :
    rowsArr m c (ix2 r n) = m ((c : Thread nD τ).loc main_arg0) (ix3 b f n) := by
  rw [rows_eq]
  exact rows_apply _ shapeCasts_S16x4000x512_S64000x512 b f n r hr

/-- Entry `(n, q)` of the matrix is the coefficient column `q` gives sample `n`. -/
theorem weights_entry (c : Dev nD) (n : Fin 512) (q : Fin 514) :
    weightsArr m c (ix2 n q) = coef (m ((c : Thread nD τ).loc main_arg1)) (m ((c : Thread nD τ).loc main_arg2)) q n := by
  rw [weights_eq]
  exact weights_apply _ _ transposes_S257x512_S512x257_1_0 bcast_S512x257_S512x257x1_0_1
    concatenates_S512x257x1_S512x257x1_S512x257x2_d2 shapeCasts_S512x257x2_S512x514 n q

/-! ## What the host makes of the region's output -/

/-- The program's result: the output array's 64000 rows cut into 16 × 4000 frames. -/
theorem result_eq (c : Dev nD) :
    Pipeline.afterTail₀ cfgs (dats m) 0 (V0 m) [hostOps1] c main_v9
      = shapeCast S16x4000x514 ((dats m 0 c).arrAt 2 cfg0.N) shapeCasts_S64000x514_S16x4000x514 := by
  unfold Pipeline.afterTail₀
  show StableHlo.after hostOps1 _ (Proc.devRef .tc main_v9) = _
  after_results
  have e := Pipeline.withArrays_arr spec0 launch0.win.arr_inj c (V0 m c) (fun w => (dats m 0 c).arrAt w (cfgs 0).N) 2
  funext i
  exact congrFun (congrArg (fun A : S64000x514.Idx → EReal => shapeCast S16x4000x514 A shapeCasts_S64000x514_S16x4000x514) e) i

/-- The rows times the matrix, cut into frames, IS the transform of the argument arrays. -/
theorem value_eq (c : Dev nD) :
    shapeCast S16x4000x514 (rowsTimes (rowsArr m c) (weightsArr m c)) shapeCasts_S64000x514_S16x4000x514
      = spectrum (m ((c : Thread nD τ).loc main_arg0)) (m ((c : Thread nD τ).loc main_arg1)) (m ((c : Thread nD τ).loc main_arg2)) := by
  funext i
  obtain ⟨b, f, q, rfl⟩ : ∃ (b : Fin 16) (f : Fin 4000) (q : Fin 514), i = ix3 b f q := ⟨i 0, i 1, i 2, eq_ix3 i⟩
  have hb := b.isLt
  have hf := f.isLt
  refine (frames_apply _ shapeCasts_S64000x514_S16x4000x514 b f q ⟨b.val * 4000 + f.val, by omega⟩ rfl).trans ?_
  rw [spectrum_apply]
  unfold rowsTimes
  refine Finset.sum_congr rfl fun n _ => ?_
  show rowsArr m c (ix2 ⟨b.val * 4000 + f.val, _⟩ n) * weightsArr m c (ix2 n q) = _
  rw [rows_entry m c b f n _ rfl, weights_entry m c n q]

/-! ## The run, read -/

/-- THE KERNEL'S RUN with its result named: every weakly fair execution terminates with the result array at the
    transform of the argument arrays, and the argument arrays unchanged. -/
theorem run : θ_run (defs (F := Ideal)) (onTc (τ := τ) (main (F := Ideal))) ⟨m, fun _ => 0, ρ⟩ fun r => ∀ c : Dev nD,
      r.2.mem ((c.tc : Thread nD τ).loc main_v9)
        = spectrum (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v9 (Pipeline.mem_restRefs_of main_v9 (by decide) (by decide))).trans
        ((result_eq m c).trans ((congrArg (fun A : S64000x514.Idx → EReal => shapeCast S16x4000x514 A shapeCasts_S64000x514_S16x4000x514)
          (product_eq m c)).trans (value_eq m c))),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.Whole

end
-- ==== Proof.lean ====
/- A one-sided discrete Fourier transform of 16 × 4000 frames of 512 samples, computed two ways.

   Both programs produce, for every frame, the 257 frequency bins' real and imaginary parts interleaved: entry `2k + j` of
   frame `(b, f)` is `∑ n, x[b, f, n] · T_j[k, n]`, with `T_0` the real and `T_1` the imaginary coefficient table
   (Proof/Spec.lean, `Cert.Dft.spectrum`).
   The reference takes the two products table by table and interleaves the results (Proof/RefValue.lean). The kernel
   interleaves the two tables into one 512 × 514 matrix first, lays the frames out as 64000 rows, multiplies 2000 rows at a
   time into a zero accumulator on a grid of 32 points, and cuts the rows back into frames (Proof/KernelBlocks.lean: the
   32 blocks tile the product; Proof/KernelValue.lean: the host steps around it). Over the extended reals a change of
   number format is the identity and a product into a zero accumulator is the plain sum, so both results are the same
   sums of the same terms in the same order: the two sides meet entry by entry with no law of arithmetic beyond
   `0 + s = s`, and the inputs' finiteness is never used.
   The three frames are the generated ones (the reference's is its run with the result dropped); the idealization rewrote
   nothing, so there is nothing to preserve. -/
import proofs.«169990_j56049323213334_1_alg».proof.Defs
import proofs.«169990_j56049323213334_1_alg».proof.Proof.Gen.Kernel
import proofs.«169990_j56049323213334_1_alg».proof.Proof.Gen.Kernel.Skeleton
import proofs.«169990_j56049323213334_1_alg».proof.Proof.Gen.Kernel.Launch
import proofs.«169990_j56049323213334_1_alg».proof.Proof.Gen.Kernel.Points
import proofs.«169990_j56049323213334_1_alg».proof.Proof.Gen.Kernel.Frame
import proofs.«169990_j56049323213334_1_alg».proof.Proof.Gen.KernelIdeal
import proofs.«169990_j56049323213334_1_alg».proof.Proof.Gen.KernelIdeal.Skeleton
import proofs.«169990_j56049323213334_1_alg».proof.Proof.Gen.KernelIdeal.Launch
import proofs.«169990_j56049323213334_1_alg».proof.Proof.Gen.KernelIdeal.Points
import proofs.«169990_j56049323213334_1_alg».proof.Proof.Gen.KernelIdeal.Frame
import proofs.«169990_j56049323213334_1_alg».proof.Proof.Gen.ReferenceIdeal
import proofs.«169990_j56049323213334_1_alg».proof.Proof.Gen.ReferenceIdeal.Run
import proofs.«169990_j56049323213334_1_alg».proof.Proof.Gen.ReferenceIdeal.Read
import proofs.«169990_j56049323213334_1_alg».proof.Proof.Gen.Pre_finite_inputs
import proofs.«169990_j56049323213334_1_alg».proof.Proof.Spec
import proofs.«169990_j56049323213334_1_alg».proof.Proof.RefValue
import proofs.«169990_j56049323213334_1_alg».proof.Proof.KernelBlocks
import proofs.«169990_j56049323213334_1_alg».proof.Proof.KernelValue
import Idealize.ShloMosaic.Adequacy
import Idealize.ShloMosaic.Init

noncomputable section

namespace Cert.Proof

open Idealize.ShloMosaic Idealize.ShloMosaic.TcCoe Idealize.SL.Sem

/-- The word-level kernel runs and leaves its arguments as they were. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- And the reference: its run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end at the transform of their arguments, and the arguments agree. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.RefValue.run m' ρ')
  rw [(hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
